-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x8x32 : Shape := ⟨4, ![1, 1024, 8, 32]⟩
abbrev S_ : Shape := ⟨0, ![]⟩

class Facts : Prop where
  bcast_S_S1x1024x8x32 : S_.BroadcastsInDim S1x1024x8x32 (![] : Fin 0 → Fin S1x1024x8x32.rank)
  reducesTo_S1x1024x8x32_S_d0_1_2_3 : S1x1024x8x32.ReducesTo [0, 1, 2, 3] S_
  h_S_ : 0 < S_.numel

variable [Facts]

def fn {F : FTy → Type} [FloatOps F] (main_arg0 : FVec F S1x1024x8x32 .f32) (main_arg1 : FVec F S1x1024x8x32 .f32) : IVec S_ 1 :=
  let main_v0 : FVec F S1x1024x8x32 .f32 := Host.absf main_arg0
  let main_cst : FVec F S_ .f32 := constant S_ .f32 0x7F800000#32
  let main_v1 : FVec F S1x1024x8x32 .f32 := broadcastInDim S1x1024x8x32 ![] bcast_S_S1x1024x8x32 main_cst
  let main_v2 : IVec S1x1024x8x32 1 := cmpf .olt main_v0 main_v1
  let main_c : IVec S_ 1 := constantI S_ 1 1#1
  let main_v3 : IVec S_ 1 := (fun x v => Host.reduce IntOp.andi x v reducesTo_S1x1024x8x32_S_d0_1_2_3 h_S_) main_v2 main_c
  let main_v4 : FVec F S1x1024x8x32 .f32 := Host.absf main_arg1
  let main_cst_0 : FVec F S_ .f32 := constant S_ .f32 0x7F800000#32
  let main_v5 : FVec F S1x1024x8x32 .f32 := broadcastInDim S1x1024x8x32 ![] bcast_S_S1x1024x8x32 main_cst_0
  let main_v6 : IVec S1x1024x8x32 1 := cmpf .olt main_v4 main_v5
  let main_c_1 : IVec S_ 1 := constantI S_ 1 1#1
  let main_v7 : IVec S_ 1 := (fun x v => Host.reduce IntOp.andi x v reducesTo_S1x1024x8x32_S_d0_1_2_3 h_S_) main_v6 main_c_1
  let main_v8 : IVec S_ 1 := andi main_v3 main_v7
  main_v8
-- ==== Kernel.lean ====
abbrev S1x1024x8x32 : Shape := ⟨4, ![1, 1024, 8, 32]⟩
abbrev S1x8x1024x32 : Shape := ⟨4, ![1, 8, 1024, 32]⟩
abbrev S1x8x1024x1024 : Shape := ⟨4, ![1, 8, 1024, 1024]⟩
abbrev S1x8x256x32 : Shape := ⟨4, ![1, 8, 256, 32]⟩
abbrev S1x8x256x256 : Shape := ⟨4, ![1, 8, 256, 256]⟩
abbrev S8x256x256 : Shape := ⟨3, ![8, 256, 256]⟩
abbrev S1x8x256x1 : Shape := ⟨4, ![1, 8, 256, 1]⟩
abbrev S8x256 : Shape := ⟨2, ![8, 256]⟩
abbrev S8x256x1 : Shape := ⟨3, ![8, 256, 1]⟩
abbrev S8x1x256 : Shape := ⟨3, ![8, 1, 256]⟩
abbrev S1x1024x1024x8 : Shape := ⟨4, ![1, 1024, 1024, 8]⟩

abbrev nBuf : Space → Nat
  | .hbm => 6
  | .vmem => 6
  | .smem => 0
  | _ => 0

abbrev bufTy : (tb : Table) → Fin (tcTables nBuf tb) → BufTy
  | .hbm, ⟨0, _⟩ => ⟨S1x1024x8x32, .f32⟩
  | .hbm, ⟨1, _⟩ => ⟨S1x1024x8x32, .f32⟩
  | .hbm, ⟨2, _⟩ => ⟨S1x8x1024x32, .f32⟩
  | .hbm, ⟨3, _⟩ => ⟨S1x8x1024x32, .f32⟩
  | .hbm, ⟨4, _⟩ => ⟨S1x8x1024x1024, .f32⟩
  | .hbm, ⟨5, _⟩ => ⟨S1x1024x1024x8, .f32⟩
  | .local _ .vmem, ⟨0, _⟩ => ⟨S1x8x256x32, .f32⟩
  | .local _ .vmem, ⟨1, _⟩ => ⟨S1x8x256x32, .f32⟩
  | .local _ .vmem, ⟨2, _⟩ => ⟨S1x8x256x32, .f32⟩
  | .local _ .vmem, ⟨3, _⟩ => ⟨S1x8x256x32, .f32⟩
  | .local _ .vmem, ⟨4, _⟩ => ⟨S1x8x256x256, .f32⟩
  | .local _ .vmem, ⟨5, _⟩ => ⟨S1x8x256x256, .f32⟩
  | _, _ => ⟨S1x1024x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 2 → Memref sig .tc .vmem S1x8x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S1x1024x8x32_S1x8x1024x32_0_2_1_3 : S1x1024x8x32.Transposes [0, 2, 1, 3] S1x8x1024x32
  inb_S1x8x256x32_S1x8x256x1_0_0_0_0 : ∀ a, (![0, 0, 0, 0] : Fin 4 → Nat) a + S1x8x256x1.size a ≤ S1x8x256x32.size a
  h_S1x8x256x1 : 0 < S1x8x256x1.numel
  shapeCasts_S1x8x256x1_S8x256 : S1x8x256x1.ShapeCasts S8x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  inb_S1x8x256x32_S1x8x256x1_0_0_0_1 : ∀ a, (![0, 0, 0, 1] : Fin 4 → Nat) a + S1x8x256x1.size a ≤ S1x8x256x32.size a
  inb_S1x8x256x32_S1x8x256x1_0_0_0_2 : ∀ a, (![0, 0, 0, 2] : Fin 4 → Nat) a + S1x8x256x1.size a ≤ S1x8x256x32.size a
  inb_S1x8x256x32_S1x8x256x1_0_0_0_3 : ∀ a, (![0, 0, 0, 3] : Fin 4 → Nat) a + S1x8x256x1.size a ≤ S1x8x256x32.size a
  inb_S1x8x256x32_S1x8x256x1_0_0_0_4 : ∀ a, (![0, 0, 0, 4] : Fin 4 → Nat) a + S1x8x256x1.size a ≤ S1x8x256x32.size a
  inb_S1x8x256x32_S1x8x256x1_0_0_0_5 : ∀ a, (![0, 0, 0, 5] : Fin 4 → Nat) a + S1x8x256x1.size a ≤ S1x8x256x32.size a
  inb_S1x8x256x32_S1x8x256x1_0_0_0_6 : ∀ a, (![0, 0, 0, 6] : Fin 4 → Nat) a + S1x8x256x1.size a ≤ S1x8x256x32.size a
  inb_S1x8x256x32_S1x8x256x1_0_0_0_7 : ∀ a, (![0, 0, 0, 7] : Fin 4 → Nat) a + S1x8x256x1.size a ≤ S1x8x256x32.size a
  inb_S1x8x256x32_S1x8x256x1_0_0_0_8 : ∀ a, (![0, 0, 0, 8] : Fin 4 → Nat) a + S1x8x256x1.size a ≤ S1x8x256x32.size a
  inb_S1x8x256x32_S1x8x256x1_0_0_0_9 : ∀ a, (![0, 0, 0, 9] : Fin 4 → Nat) a + S1x8x256x1.size a ≤ S1x8x256x32.size a
  inb_S1x8x256x32_S1x8x256x1_0_0_0_10 : ∀ a, (![0, 0, 0, 10] : Fin 4 → Nat) a + S1x8x256x1.size a ≤ S1x8x256x32.size a
  inb_S1x8x256x32_S1x8x256x1_0_0_0_11 : ∀ a, (![0, 0, 0, 11] : Fin 4 → Nat) a + S1x8x256x1.size a ≤ S1x8x256x32.size a
  inb_S1x8x256x32_S1x8x256x1_0_0_0_12 : ∀ a, (![0, 0, 0, 12] : Fin 4 → Nat) a + S1x8x256x1.size a ≤ S1x8x256x32.size a
  inb_S1x8x256x32_S1x8x256x1_0_0_0_13 : ∀ a, (![0, 0, 0, 13] : Fin 4 → Nat) a + S1x8x256x1.size a ≤ S1x8x256x32.size a
  inb_S1x8x256x32_S1x8x256x1_0_0_0_14 : ∀ a, (![0, 0, 0, 14] : Fin 4 → Nat) a + S1x8x256x1.size a ≤ S1x8x256x32.size a
  inb_S1x8x256x32_S1x8x256x1_0_0_0_15 : ∀ a, (![0, 0, 0, 15] : Fin 4 → Nat) a + S1x8x256x1.size a ≤ S1x8x256x32.size a
  inb_S1x8x256x32_S1x8x256x1_0_0_0_16 : ∀ a, (![0, 0, 0, 16] : Fin 4 → Nat) a + S1x8x256x1.size a ≤ S1x8x256x32.size a
  inb_S1x8x256x32_S1x8x256x1_0_0_0_17 : ∀ a, (![0, 0, 0, 17] : Fin 4 → Nat) a + S1x8x256x1.size a ≤ S1x8x256x32.size a
  inb_S1x8x256x32_S1x8x256x1_0_0_0_18 : ∀ a, (![0, 0, 0, 18] : Fin 4 → Nat) a + S1x8x256x1.size a ≤ S1x8x256x32.size a
  inb_S1x8x256x32_S1x8x256x1_0_0_0_19 : ∀ a, (![0, 0, 0, 19] : Fin 4 → Nat) a + S1x8x256x1.size a ≤ S1x8x256x32.size a
  inb_S1x8x256x32_S1x8x256x1_0_0_0_20 : ∀ a, (![0, 0, 0, 20] : Fin 4 → Nat) a + S1x8x256x1.size a ≤ S1x8x256x32.size a
  inb_S1x8x256x32_S1x8x256x1_0_0_0_21 : ∀ a, (![0, 0, 0, 21] : Fin 4 → Nat) a + S1x8x256x1.size a ≤ S1x8x256x32.size a
  inb_S1x8x256x32_S1x8x256x1_0_0_0_22 : ∀ a, (![0, 0, 0, 22] : Fin 4 → Nat) a + S1x8x256x1.size a ≤ S1x8x256x32.size a
  inb_S1x8x256x32_S1x8x256x1_0_0_0_23 : ∀ a, (![0, 0, 0, 23] : Fin 4 → Nat) a + S1x8x256x1.size a ≤ S1x8x256x32.size a
  inb_S1x8x256x32_S1x8x256x1_0_0_0_24 : ∀ a, (![0, 0, 0, 24] : Fin 4 → Nat) a + S1x8x256x1.size a ≤ S1x8x256x32.size a
  inb_S1x8x256x32_S1x8x256x1_0_0_0_25 : ∀ a, (![0, 0, 0, 25] : Fin 4 → Nat) a + S1x8x256x1.size a ≤ S1x8x256x32.size a
  inb_S1x8x256x32_S1x8x256x1_0_0_0_26 : ∀ a, (![0, 0, 0, 26] : Fin 4 → Nat) a + S1x8x256x1.size a ≤ S1x8x256x32.size a
  inb_S1x8x256x32_S1x8x256x1_0_0_0_27 : ∀ a, (![0, 0, 0, 27] : Fin 4 → Nat) a + S1x8x256x1.size a ≤ S1x8x256x32.size a
  inb_S1x8x256x32_S1x8x256x1_0_0_0_28 : ∀ a, (![0, 0, 0, 28] : Fin 4 → Nat) a + S1x8x256x1.size a ≤ S1x8x256x32.size a
  inb_S1x8x256x32_S1x8x256x1_0_0_0_29 : ∀ a, (![0, 0, 0, 29] : Fin 4 → Nat) a + S1x8x256x1.size a ≤ S1x8x256x32.size a
  inb_S1x8x256x32_S1x8x256x1_0_0_0_30 : ∀ a, (![0, 0, 0, 30] : Fin 4 → Nat) a + S1x8x256x1.size a ≤ S1x8x256x32.size a
  inb_S1x8x256x32_S1x8x256x1_0_0_0_31 : ∀ a, (![0, 0, 0, 31] : Fin 4 → Nat) a + S1x8x256x1.size a ≤ S1x8x256x32.size a
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  transposes_S1x8x1024x1024_S1x1024x1024x8_0_2_3_1 : S1x8x1024x1024.Transposes [0, 2, 3, 1] S1x1024x1024x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x32.size a ≤ S1x8x1024x32.size a
  hwx0_0 : ∀ i : grid0.Coords, EltTy.bits .f32 = 32 ∨ (Rect.block (s := S1x8x1024x32) S1x8x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256x32.size a ≤ S1x8x1024x32.size a
  hwx0_1 : ∀ i : grid0.Coords, EltTy.bits .f32 = 32 ∨ (Rect.block (s := S1x8x1024x32) S1x8x256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S1x8x1024x1024.size a
  hwx0_2 : ∀ i : grid0.Coords, EltTy.bits .f32 = 32 ∨ (Rect.block (s := S1x8x1024x1024) S1x8x256x256.size (cc0_transform_2 i) (hinb0_2 i)).WholeWords (EltTy.packing .f32)

variable [Facts₀]

abbrev win0_0 : Pipeline.Window sig grid0 :=
  Pipeline.Window.ofSpec (Memref.whole main_v0) S1x8x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1024x8x32 : Shape := ⟨4, ![1, 1024, 8, 32]⟩
abbrev S1x1024x1x8x32 : Shape := ⟨5, ![1, 1024, 1, 8, 32]⟩
abbrev S1x1x1024x8x32 : Shape := ⟨5, ![1, 1, 1024, 8, 32]⟩
abbrev S1x1024x1024x8x32 : Shape := ⟨5, ![1, 1024, 1024, 8, 32]⟩
abbrev S_ : Shape := ⟨0, ![]⟩
abbrev S1x1024x1024x8 : Shape := ⟨4, ![1, 1024, 1024, 8]⟩

abbrev nBuf : Space → Nat
  | .hbm => 14
  | .vmem => 0
  | .smem => 0
  | _ => 0

abbrev bufTy : (tb : Table) → Fin (tcTables nBuf tb) → BufTy
  | .hbm, ⟨0, _⟩ => ⟨S1x1024x8x32, .f32⟩
  | .hbm, ⟨1, _⟩ => ⟨S1x1024x8x32, .f32⟩
  | .hbm, ⟨2, _⟩ => ⟨S1x1024x1x8x32, .f32⟩
  | .hbm, ⟨3, _⟩ => ⟨S1x1x1024x8x32, .f32⟩
  | .hbm, ⟨4, _⟩ => ⟨S1x1024x1024x8x32, .f32⟩
  | .hbm, ⟨5, _⟩ => ⟨S1x1024x1024x8x32, .f32⟩
  | .hbm, ⟨6, _⟩ => ⟨S1x1024x1024x8x32, .f32⟩
  | .hbm, ⟨7, _⟩ => ⟨S1x1024x1024x8x32, .f32⟩
  | .hbm, ⟨8, _⟩ => ⟨S_, .f32⟩
  | .hbm, ⟨9, _⟩ => ⟨S1x1024x1024x8, .f32⟩
  | .hbm, ⟨10, _⟩ => ⟨S1x1024x1024x8, .f32⟩
  | .hbm, ⟨11, _⟩ => ⟨S_, .f32⟩
  | .hbm, ⟨12, _⟩ => ⟨S1x1024x1024x8, .f32⟩
  | .hbm, ⟨13, _⟩ => ⟨S1x1024x1024x8, .f32⟩
  | _, _ => ⟨S1x1024x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S1x1024x8x32_S1x1024x1x8x32_0_1_3_4 : S1x1024x8x32.BroadcastsInDim S1x1024x1x8x32 (![0, 1, 3, 4] : Fin 4 → Fin S1x1024x1x8x32.rank)
  bcast_S1x1024x8x32_S1x1x1024x8x32_0_2_3_4 : S1x1024x8x32.BroadcastsInDim S1x1x1024x8x32 (![0, 2, 3, 4] : Fin 4 → Fin S1x1x1024x8x32.rank)
  bcast_S1x1024x1x8x32_S1x1024x1024x8x32_0_1_2_3_4 : S1x1024x1x8x32.BroadcastsInDim S1x1024x1024x8x32 (![0, 1, 2, 3, 4] : Fin 5 → Fin S1x1024x1024x8x32.rank)
  bcast_S1x1x1024x8x32_S1x1024x1024x8x32_0_1_2_3_4 : S1x1x1024x8x32.BroadcastsInDim S1x1024x1024x8x32 (![0, 1, 2, 3, 4] : Fin 5 → Fin S1x1024x1024x8x32.rank)
  reducesTo_S1x1024x1024x8x32_S1x1024x1024x8_d4 : S1x1024x1024x8x32.ReducesTo [4] S1x1024x1024x8
  h_S_ : 0 < S_.numel
  bcast_S_S1x1024x1024x8 : S_.BroadcastsInDim S1x1024x1024x8 (![] : Fin 0 → Fin S1x1024x1024x8.rank)

variable [Facts₀]

class Facts : Prop extends Facts₀ where

variable [Facts]
-- ==== Proof.LibStackLayout.lean ====
/-
  Layout operations on a stack of rows and columns, read at an index given by coordinates.

  A kernel that forms an outer difference q[h, s] - k[h, t] over a stack of heads h does it with unit axes:
  a [1, a, b, 1] slab is cast to the matrix [a, b], the matrix is cast to a stack of columns [a, b, 1] or to a
  stack of rows [a, 1, b], and the column (row) is repeated along the unit axis to [a, b, c] ([a, c, b]).
  Each lemma below reads one of these forms at an index written by coordinates as the operand at the coordinates
  it came from, and two more read a rank-4 transpose that swaps the middle axes, or rotates the last three.
  They are the rank-3 and rank-4 companions of the library's unit-axis lemmas (a shape cast is the operand at the
  same row-major position; a broadcast reads coordinate 0 on a unit axis; a transpose permutes coordinates).
-/
import Idealize.ShloMosaic.Lib.ValueLayout

namespace Cert.LibStackLayout

open Idealize.ShloMosaic Idealize.ShloMosaic.ValueIdx

variable {α : Type}

/-! ## Unit axes added and dropped by a shape cast -/

/-- A [1, a, b, 1] slab cast to the matrix [a, b] reads, at (i, j), the slab at (0, i, j, 0). -/
theorem shapeCast_1ab1_ab_apply {a b : ℕ} (x : (⟨4, ![1, a, b, 1]⟩ : Shape).Idx → α)
    (h : (⟨4, ![1, a, b, 1]⟩ : Shape).ShapeCasts ⟨2, ![a, b]⟩) (i : Fin a) (j : Fin b) :
    shapeCast ⟨2, ![a, b]⟩ x h (ix2 i j) = x (ix4 (0 : Fin 1) i j (0 : Fin 1)) :=
  shapeCast_apply x h _ _ (by
    rw [Shape.rowMajor_val_four, Shape.rowMajor_val_two]
    show ((0 * a + i.val) * b + j.val) * 1 + 0 = i.val * b + j.val
    rw [Nat.zero_mul, Nat.zero_add, Nat.mul_one, Nat.add_zero])

/-- A matrix [a, b] cast to a stack of columns [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A matrix [a, b] cast to a stack of rows [a, 1, b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A column, or a row, repeated along its unit axis -/

/-- A stack of columns [a, b, 1] broadcast to [a, b, c] reads, at (i, j, k), the column entry (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A stack of rows [a, 1, c] broadcast to [a, b, c] reads, at (i, j, k), the row entry (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## Rank-4 transposes -/

/-- A rank-4 array with its two middle axes swapped (permutation [0, 2, 1, 3]) reads, at (i, k, j, l), the operand
    at (i, j, k, l). -/
theorem transpose_ix4_0213_apply {a b c d : ℕ} (x : (⟨4, ![a, b, c, d]⟩ : Shape).Idx → α)
    (h : (⟨4, ![a, b, c, d]⟩ : Shape).Transposes [0, 2, 1, 3] ⟨4, ![a, c, b, d]⟩)
    (i : Fin a) (k : Fin c) (j : Fin b) (l : Fin d) :
    transpose ⟨4, ![a, c, b, d]⟩ [0, 2, 1, 3] x h (ix4 i k j l) = x (ix4 i j k l) :=
  transpose_apply _ x h _ _ fun e => match e with | ⟨0, _⟩ => rfl | ⟨1, _⟩ => rfl | ⟨2, _⟩ => rfl | ⟨3, _⟩ => rfl

/-- A rank-4 array with its last three axes rotated (permutation [0, 2, 3, 1]: the second axis moved to the end)
    reads, at (i, k, l, j), the operand at (i, j, k, l). -/
theorem transpose_ix4_0231_apply {a b c d : ℕ} (x : (⟨4, ![a, b, c, d]⟩ : Shape).Idx → α)
    (h : (⟨4, ![a, b, c, d]⟩ : Shape).Transposes [0, 2, 3, 1] ⟨4, ![a, c, d, b]⟩)
    (i : Fin a) (k : Fin c) (l : Fin d) (j : Fin b) :
    transpose ⟨4, ![a, c, d, b]⟩ [0, 2, 3, 1] x h (ix4 i k l j) = x (ix4 i j k l) :=
  transpose_apply _ x h _ _ fun e => match e with | ⟨0, _⟩ => rfl | ⟨1, _⟩ => rfl | ⟨2, _⟩ => rfl | ⟨3, _⟩ => rfl

end Cert.LibStackLayout
-- ==== Proof.L1Spec.lean ====
/-
  What both programs compute, as one function of the argument arrays, and the one law that joins them.

  For queries q and keys k of shape [1, 1024, 8, 32] (token, head, lane) the result at (0, s, t, h) is the scaled
  negative L1 distance between query row s and key row t of head h,

      attn[0, s, t, h] = (-(Σ_w |q[0, s, h, w] - k[0, t, h, w]|)) · c,

  over the extended reals, where |x| = max x (-x) and c is the scale both programs multiply by (the same float
  word on both sides, so it is never evaluated). The kernel works on head-major copies a[0, h, s, w] = q[0, s, h, w]
  and forms the sum lane by lane, starting from 0 and adding lane 0, lane 1, ..., lane 31 in that order; the
  reference sums the 32 lanes at once. A running sum over consecutive lanes is the sum over the lanes: this uses
  only that + is associative with neutral element 0, so it holds at infinite entries too and no finiteness of the
  inputs is needed anywhere.
-/
import Idealize.ShloMosaic.Lib.ValueIdx
import Mathlib.Algebra.BigOperators.Fin

noncomputable section

namespace Cert.L1Spec

open Idealize.ShloMosaic Idealize.ShloMosaic.ValueIdx

/-- The scale both programs multiply by: the float word for 1/sqrt 32 as each program carries it. Its value is
    never needed, only that the two programs carry the same word. -/
abbrev scale : EReal := Ideal.ofBits .f32 0x3E3504F3#32

/-- The absolute value of an extended real, as both programs' abs reads at the ideal instance. -/
def eabs (x : EReal) : EReal := max x (-x)

/-- Head-major form: the scaled negative L1 distance between row s of a and row t of b, within head h.
    The row counts are parameters: the kernel uses it on 256-row blocks and on the whole 1024-row arrays. -/
def negL1 {n m : ℕ} (c : EReal) (a : (⟨4, ![1, 8, n, 32]⟩ : Shape).Idx → EReal)
    (b : (⟨4, ![1, 8, m, 32]⟩ : Shape).Idx → EReal) (h : Fin 8) (s : Fin n) (t : Fin m) : EReal :=
  (-(∑ w : Fin 32, eabs (a (ix4 (0 : Fin 1) h s w) - b (ix4 (0 : Fin 1) h t w)))) * c

/-- Token-major form, the reference's: the same distance read off q and k as they are given. -/
def attnAt (c : EReal) (q k : (⟨4, ![1, 1024, 8, 32]⟩ : Shape).Idx → EReal) (s t : Fin 1024) (h : Fin 8) : EReal :=
  (-(∑ w : Fin 32, eabs (q (ix4 (0 : Fin 1) s h w) - k (ix4 (0 : Fin 1) t h w)))) * c

/-- The result array: entry (0, s, t, h) is the distance between query s and key t in head h. -/
def attn (c : EReal) (q k : (⟨4, ![1, 1024, 8, 32]⟩ : Shape).Idx → EReal) :
    (⟨4, ![1, 1024, 1024, 8]⟩ : Shape).Idx → EReal :=
  fun j => attnAt c q k (j 1) (j 2) (j 3)

theorem attn_ix4 (c : EReal) (q k : (⟨4, ![1, 1024, 8, 32]⟩ : Shape).Idx → EReal) (u : Fin 1) (s t : Fin 1024)
    (h : Fin 8) : attn c q k (ix4 u s t h) = attnAt c q k s t h := rfl

/-- On head-major copies of q and k the head-major distance is the token-major one. -/
theorem negL1_of_headMajor (c : EReal) (q k : (⟨4, ![1, 1024, 8, 32]⟩ : Shape).Idx → EReal)
    (a b : (⟨4, ![1, 8, 1024, 32]⟩ : Shape).Idx → EReal)
    (ha : ∀ (h : Fin 8) (s : Fin 1024) (w : Fin 32), a (ix4 (0 : Fin 1) h s w) = q (ix4 (0 : Fin 1) s h w))
    (hb : ∀ (h : Fin 8) (s : Fin 1024) (w : Fin 32), b (ix4 (0 : Fin 1) h s w) = k (ix4 (0 : Fin 1) s h w))
    (h : Fin 8) (s t : Fin 1024) : negL1 c a b h s t = attnAt c q k s t h := by
  unfold negL1 attnAt
  exact congrArg (fun x => -x * c) (Finset.sum_congr rfl fun w _ => by rw [ha, hb])

/-- A sum over the 32 lanes is the sum over the lane numbers below 32 (a lane number outside contributing 0). -/
theorem sum_lanes_eq_sum_range {M : Type*} [AddCommMonoid M] (g : Fin 32 → M) :
    ∑ w : Fin 32, g w = ∑ i ∈ Finset.range 32, (if h : i < 32 then g ⟨i, h⟩ else 0) := by
  rw [Finset.sum_range]
  exact Finset.sum_congr rfl fun i _ => by rw [dif_pos i.isLt]

end Cert.L1Spec

end
-- ==== Proof.BodyValue.lean ====
/-
  What the kernel body leaves in its output block, entry by entry.

  The body holds a 256-row block x0 of the head-major queries and a 256-row block x1 of the head-major keys, both
  of shape [1, 8, 256, 32]. For each lane w = 0, ..., 31 in turn it loads column w of both blocks, turns the query
  column into a stack of columns and the key column into a stack of rows, repeats each across the other axis,
  and adds |x0[0, h, s, w] - x1[0, h, t, w]| to a running sum that starts at 0. It then stores (0 - sum) times the
  scale. Read at the entry (0, h, s, t):

  * the layout steps only move coordinates (a cast keeps the row-major position, a repeat reads coordinate 0 of the
    unit axis), so lane w contributes exactly |x0[0, h, s, w] - x1[0, h, t, w]|;
  * the zero word is 0, so 0 - sum is -sum and the running sum is lane 0 + lane 1 + ... + lane 31;
  * a running sum over lanes 0..31 is the sum over the 32 lanes.

  So the stored entry is the head-major distance of the specification on the two blocks.
-/
import proofs.«151844_j523986010475_1_alg».proof.Proof.Gen.KernelIdeal.Frame
import proofs.«151844_j523986010475_1_alg».proof.Proof.LibStackLayout
import proofs.«151844_j523986010475_1_alg».proof.Proof.L1Spec
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.ValueIdx Cert.L1Spec Cert.LibStackLayout

/-- The absolute value of a vector, read at an index. -/
theorem absf_apply {s : Shape} {φ : FTy} (a : FVec Ideal s φ) (i : s.Idx) : absf a i = FloatOps.absf (a i) := rfl

/-- Column w of a [1, 8, 256, 32] block, as the [1, 8, 256, 1] slab at offset (0, 0, 0, w): its entry (0, h, s, 0)
    sits at (0, h, s, w) of the block. -/
theorem lane_idx (w : ℕ)
    (inb : ∀ a, (![0, 0, 0, w] : Fin 4 → ℕ) a + S1x8x256x1.size a ≤ S1x8x256x32.size a)
    (h : Fin 8) (s : Fin 256) :
    (Rect.unit (s := S1x8x256x32) ![0, 0, 0, w] S1x8x256x1.size inb).idx (ix4 (0 : Fin 1) h s (0 : Fin 1))
      = ix4 (0 : Fin 1) h s ⟨w, inb 3⟩ := by
  refine funext fun a => Fin.ext ?_
  match a with
  | ⟨0, _⟩ => rfl
  | ⟨1, _⟩ => show 0 + 1 * h.val = h.val; omega
  | ⟨2, _⟩ => show 0 + 1 * s.val = s.val; omega
  | ⟨3, _⟩ => show w + 1 * 0 = w; omega

/-- The store's offsets are all zero: it writes the whole output block. -/
theorem zero_offsets : (![0, 0, 0, 0] : Fin 4 → ℕ) = fun _ => 0 := by
  funext a; match a with | ⟨0, _⟩ => rfl | ⟨1, _⟩ => rfl | ⟨2, _⟩ => rfl | ⟨3, _⟩ => rfl

/-- THE BODY'S RESULT at entry (0, h, s, t) of the output block: the scaled negative L1 distance between row s of the
    query block and row t of the key block, in head h. -/
theorem out_apply (x0 x1 : Vec Ideal S1x8x256x32 .f32) (h : Fin 8) (s t : Fin 256) :
    out0_2 (F := Ideal) x0 x1 (ix4 (0 : Fin 1) h s t) = negL1 scale x0 x1 h s t := by
  unfold out0_2
  rw [View.canon_unit_zero zero_offsets]
  unfold k0_pay1 k0_pay2 k0_pay3 k0_pay4 k0_pay5 k0_pay6 k0_pay7 k0_pay8 k0_pay9 k0_pay10 k0_pay11 k0_pay12 k0_pay13
    k0_pay14 k0_pay15 k0_pay16 k0_pay17 k0_pay18
  -- every operation read at the entry: the layout steps move coordinates, the arithmetic is entrywise
  simp only [shapeCast_abc_1abc_apply, mulf_apply, addf_apply, absf_apply, subf_apply, broadcast_apply,
    broadcastTo_ab1_abc_apply, broadcastTo_a1c_abc_apply, shapeCast_ab_ab1_apply,
    shapeCast_ab_a1b_apply, shapeCast_1ab1_ab_apply, View.ld, lane_idx]
  -- the specification's sum over the 32 lanes, written out lane by lane
  unfold negL1 eabs
  rw [sum_lanes_eq_sum_range]
  simp only [Finset.sum_range_succ, Finset.sum_range_zero, Ideal.ofBits_def, Ideal.ofBits_zero_f32, zero_sub, zero_add,
    Ideal.absf_def, Nat.reduceLT, ↓reduceDIte]
  rfl

end Cert.KernelIdeal.Body

end
-- ==== Proof.KernelValue.lean ====
/-
  The kernel's result array, as one function of the arguments.

  @main first makes head-major copies of q and k (a transpose that swaps the token and head axes), then runs the
  kernel over a 4 x 4 grid, then moves the head axis of the kernel's [1, 8, 1024, 1024] result to the end.

  * At grid point (i, j) the query window holds rows 256 i .. 256 i + 255 of the head-major queries, the key window
    rows 256 j .. 256 j + 255 of the head-major keys, and the output window is the 256 x 256 tile (i, j) of every
    head. The body leaves in the tile the head-major distance of its two blocks (the body module), and row s of
    block i is row 256 i + s of the array: so the tile is the restriction of ONE function GT of the whole
    head-major arrays, entry (0, h, s, t) the distance between query row s and key row t in head h.
  * The sixteen tiles cover the array (entry (s, t) lies in tile (s / 256, t / 256)), and every point writes its tile
    back, so the output window's array ends holding GT.
  * The last transpose reads entry (0, s, t, h) of the result at (0, h, s, t) of GT, and the first two read the
    head-major (0, h, s, w) at (0, s, h, w) of q and k: the result is the specification of the arguments.
-/
import proofs.«151844_j523986010475_1_alg».proof.Proof.Gen.KernelIdeal.Frame
import proofs.«151844_j523986010475_1_alg».proof.Proof.BodyValue
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Body
open Idealize.ShloMosaic.ValueIdx Cert.L1Spec Cert.LibStackLayout

variable (m : (ℓ : Loc nD τ sig) → Buf (Elt Ideal) ℓ) (ρ : Dev nD → PrngReg)

/-- The head-major queries, as the region finds them. -/
abbrev qT (c : Dev nD) : FVec Ideal S1x8x1024x32 .f32 := V (F := Ideal) m c main_v0
/-- The head-major keys, as the region finds them. -/
abbrev kT (c : Dev nD) : FVec Ideal S1x8x1024x32 .f32 := V (F := Ideal) m c main_v1

theorem qT_eq (c : Dev nD) : qT m c = transpose S1x8x1024x32 [0, 2, 1, 3]
    (m ((c : Thread nD τ).loc main_arg0)) transposes_S1x1024x8x32_S1x8x1024x32_0_2_1_3 := by
  show StableHlo.after hostOps0 (fun b => m (c, b)) (Proc.devRef .tc main_v0) = _
  after_results

theorem kT_eq (c : Dev nD) : kT m c = transpose S1x8x1024x32 [0, 2, 1, 3]
    (m ((c : Thread nD τ).loc main_arg1)) transposes_S1x1024x8x32_S1x8x1024x32_0_2_1_3 := by
  show StableHlo.after hostOps0 (fun b => m (c, b)) (Proc.devRef .tc main_v1) = _
  after_results

/-- THE OUTPUT WINDOW'S ARRAY as one function of the head-major arrays: entry (0, h, s, t) is the distance between
    query row s and key row t of head h. -/
def GT (c : Dev nD) : FVec Ideal S1x8x1024x1024 .f32 :=
  fun j => negL1 scale (qT m c) (kT m c) (j 1) (j 2) (j 3)

/-- The body's result at any entry of the output block. -/
theorem out_at (x0 x1 : Vec Ideal S1x8x256x32 .f32) (y : S1x8x256x256.Idx) :
    out0_2 (F := Ideal) x0 x1 y = negL1 scale x0 x1 (y 1) (y 2) (y 3) := by
  obtain ⟨u, h, s, t, rfl⟩ : ∃ (u : Fin 1) (h : Fin 8) (s t : Fin 256), y = ix4 u h s t :=
    ⟨y 0, y 1, y 2, y 3, eq_ix4 y⟩
  obtain rfl : u = 0 := Subsingleton.elim _ _
  exact out_apply x0 x1 h s t

/-- The distance depends on its arrays only through the two rows it compares. -/
theorem negL1_congr {n n' k k' : ℕ} (c : EReal)
    (a : (⟨4, ![1, 8, n, 32]⟩ : Shape).Idx → EReal) (b : (⟨4, ![1, 8, k, 32]⟩ : Shape).Idx → EReal)
    (a' : (⟨4, ![1, 8, n', 32]⟩ : Shape).Idx → EReal) (b' : (⟨4, ![1, 8, k', 32]⟩ : Shape).Idx → EReal)
    (h h' : Fin 8) (s : Fin n) (t : Fin k) (s' : Fin n') (t' : Fin k')
    (ha : ∀ w : Fin 32, a (ix4 (0 : Fin 1) h s w) = a' (ix4 (0 : Fin 1) h' s' w))
    (hb : ∀ w : Fin 32, b (ix4 (0 : Fin 1) h t w) = b' (ix4 (0 : Fin 1) h' t' w)) :
    negL1 c a b h s t = negL1 c a' b' h' s' t' := by
  unfold negL1
  exact congrArg (fun x => -x * c) (Finset.sum_congr rfl fun w _ => by rw [ha, hb])

/-- The printed index maps, decided over the grid: the query window moves with the output's row blocks, the key window
    with its column blocks, every other block index is 0, and the output's block indices stay below 4. -/
theorem idx_facts : ∀ t : Fin cfg0.N,
    win0_0.index t (0 : Fin 4) = 0 ∧ win0_0.index t (1 : Fin 4) = 0
    ∧ win0_0.index t (2 : Fin 4) = win0_2.index t (2 : Fin 4) ∧ win0_0.index t (3 : Fin 4) = 0
    ∧ win0_1.index t (0 : Fin 4) = 0 ∧ win0_1.index t (1 : Fin 4) = 0
    ∧ win0_1.index t (2 : Fin 4) = win0_2.index t (3 : Fin 4) ∧ win0_1.index t (3 : Fin 4) = 0
    ∧ win0_2.index t (0 : Fin 4) = 0 ∧ win0_2.index t (1 : Fin 4) = 0
    ∧ win0_2.index t (2 : Fin 4) ≤ 3 ∧ win0_2.index t (3 : Fin 4) ≤ 3 :=
  (by decide +kernel : ∀ t : Fin grid0.N, _)

/-- Every (row block, column block) pair is some point's. -/
theorem idx_onto : ∀ (q0 q1 : Fin 4), ∃ t : Fin cfg0.N, win0_2.index t = ![0, 0, q0.val, q1.val] :=
  (by decide +kernel : ∀ (q0 q1 : Fin 4), ∃ t : Fin grid0.N, win0_2.index t = ![0, 0, q0.val, q1.val])

/-- WHAT POINT t WRITES BACK is block t of GT. -/
theorem flushed_eq (c : Dev nD) (t : Fin cfg0.N) :
    (dats m 0 c).flushed 2 t = ((cfg0.win 2).blk t).view.read (Elt Ideal) (GT m c) := by
  show (cfg0.win 2).cut (grid0.coords t) ((dats m 0 c).after 2 t) = _
  rw [after0_2]
  obtain ⟨a0, a1, a2, a3, b0, b1, b2, b3, o0, o1, o2, o3⟩ := idx_facts t
  funext y
  show out0_2 (iblk m c 0 t) (iblk m c 1 t) y = GT m c (((cfg0.win 2).blk t).view.emb y)
  refine (out_at (iblk m c 0 t) (iblk m c 1 t) y).trans ?_
  show _ = negL1 scale (qT m c) (kT m c) ((((cfg0.win 2).blk t).view.emb y) 1) ((((cfg0.win 2).blk t).view.emb y) 2)
    ((((cfg0.win 2).blk t).view.emb y) 3)
  refine negL1_congr (n := 256) (k := 256) (n' := 1024) (k' := 1024) scale (iblk m c 0 t) (iblk m c 1 t) (qT m c)
    (kT m c) (y 1) _ (y 2) (y 3) _ _ (fun w => ?_) (fun w => ?_)
  · -- the query block's row s of head h is row (row block) * 256 + s of the head-major queries
    show V m c main_v0 (((cfg0.win 0).blk t).view.emb (ix4 (0 : Fin 1) (y 1) (y 2) w)) = V m c main_v0 _
    refine congrArg (V m c main_v0) (funext fun a => Fin.ext ?_)
    match a with
    | ⟨0, _⟩ => show win0_0.index t (0 : Fin 4) * 1 + 1 * 0 = 0; omega
    | ⟨1, _⟩ => show win0_0.index t (1 : Fin 4) * 8 + 1 * (y 1).val = win0_2.index t (1 : Fin 4) * 8 + 1 * (y 1).val; omega
    | ⟨2, _⟩ => show win0_0.index t (2 : Fin 4) * 256 + 1 * (y 2).val = win0_2.index t (2 : Fin 4) * 256 + 1 * (y 2).val; omega
    | ⟨3, _⟩ => show win0_0.index t (3 : Fin 4) * 32 + 1 * w.val = w.val; omega
  · -- the key block's row t' of head h is row (column block) * 256 + t' of the head-major keys
    show V m c main_v1 (((cfg0.win 1).blk t).view.emb (ix4 (0 : Fin 1) (y 1) (y 3) w)) = V m c main_v1 _
    refine congrArg (V m c main_v1) (funext fun a => Fin.ext ?_)
    match a with
    | ⟨0, _⟩ => show win0_1.index t (0 : Fin 4) * 1 + 1 * 0 = 0; omega
    | ⟨1, _⟩ => show win0_1.index t (1 : Fin 4) * 8 + 1 * (y 1).val = win0_2.index t (1 : Fin 4) * 8 + 1 * (y 1).val; omega
    | ⟨2, _⟩ => show win0_1.index t (2 : Fin 4) * 256 + 1 * (y 3).val = win0_2.index t (3 : Fin 4) * 256 + 1 * (y 3).val; omega
    | ⟨3, _⟩ => show win0_1.index t (3 : Fin 4) * 32 + 1 * w.val = w.val; omega

/-- An index of the array is in point t's block iff each coordinate is in the block's range on its axis. -/
theorem mem_blk (t : Fin cfg0.N) (i : S1x8x1024x1024.Idx) :
    i ∈ ((cfg0.win 2).blk t).view.set ↔ ∀ a : Fin 4, win0_2.index t a * S1x8x256x256.size a ≤ (i a).val
      ∧ (i a).val < win0_2.index t a * S1x8x256x256.size a + S1x8x256x256.size a := by
  show i ∈ ((View.whole main_v2).slice (win0_2.rect t)).set ↔ _
  rw [View.set_slice_whole, Rect.mem_set_unit]
  exact Iff.rfl

/-- The 4 x 4 blocks of 256 x 256 entries tile the 1024 x 1024 plane of every head: the point that covers entry
    (0, h, s, t) is the one at row block s / 256 and column block t / 256. -/
theorem cover (i : S1x8x1024x1024.Idx) :
    ∃ t : Fin cfg0.N, (cfg0.win 2).flush t = true ∧ i ∈ ((cfg0.win 2).blk t).view.set := by
  have hi0 : (i 0).val < 1 := (i 0).isLt
  have hi1 : (i 1).val < 8 := (i 1).isLt
  have hi2 : (i 2).val < 1024 := (i 2).isLt
  have hi3 : (i 3).val < 1024 := (i 3).isLt
  obtain ⟨t, ht⟩ := idx_onto ⟨(i 2).val / 256, by omega⟩ ⟨(i 3).val / 256, by omega⟩
  have q0 : win0_2.index t (0 : Fin 4) = 0 := congrFun ht 0
  have q1 : win0_2.index t (1 : Fin 4) = 0 := congrFun ht 1
  have q2 : win0_2.index t (2 : Fin 4) = (i 2).val / 256 := congrFun ht 2
  have q3 : win0_2.index t (3 : Fin 4) = (i 3).val / 256 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE OUTPUT WINDOW'S ARRAY after the run is GT. -/
theorem final (c : Dev nD) : (dats m 0 c).arrAt 2 cfg0.N = GT m c :=
  (dats m 0 c).arrAt_eq_of_cover 2 (GT m c) (fun t _ => flushed_eq m c t) (cover)

/-- The host line after the region moves the head axis to the end. -/
theorem tail_eq (c : Dev nD) :
    Pipeline.afterTail₀ cfgs (dats m) 0 (V0 m) [hostOps1] c main_v3
      = transpose S1x1024x1024x8 [0, 2, 3, 1] (GT m c) transposes_S1x8x1024x1024_S1x1024x1024x8_0_2_3_1 := by
  unfold Pipeline.afterTail₀
  show StableHlo.after hostOps1 _ (Proc.devRef .tc main_v3) = _
  after_results
  exact congrArg (fun x => transpose S1x1024x1024x8 [0, 2, 3, 1] x transposes_S1x8x1024x1024_S1x1024x1024x8_0_2_3_1)
    ((Pipeline.withArrays_arr spec0 launch0.win.arr_inj c _ _ 2).trans (final m c))

/-- THE RESULT: the head axis moved to the end of GT is the specification of the argument arrays. -/
theorem result_eq (c : Dev nD) :
    transpose S1x1024x1024x8 [0, 2, 3, 1] (GT m c) transposes_S1x8x1024x1024_S1x1024x1024x8_0_2_3_1
      = attn scale (m ((c : Thread nD τ).loc main_arg0)) (m ((c : Thread nD τ).loc main_arg1)) := by
  funext i
  obtain ⟨u, s, t, h, rfl⟩ : ∃ (u : Fin 1) (s t : Fin 1024) (h : Fin 8), i = ix4 u s t h :=
    ⟨i 0, i 1, i 2, i 3, eq_ix4 i⟩
  obtain rfl : u = 0 := Subsingleton.elim _ _
  rw [attn_ix4]
  refine (transpose_ix4_0231_apply (GT m c) transposes_S1x8x1024x1024_S1x1024x1024x8_0_2_3_1 (0 : Fin 1) s t h).trans ?_
  show negL1 scale (qT m c) (kT m c) h s t = _
  refine negL1_of_headMajor scale _ _ (qT m c) (kT m c) (fun h s w => ?_) (fun h s w => ?_) h s t
  · rw [qT_eq]; exact transpose_ix4_0213_apply _ _ (0 : Fin 1) h s w
  · rw [kT_eq]; exact transpose_ix4_0213_apply _ _ (0 : Fin 1) h s w

/-- THE RUN, READ: every weakly fair execution of the idealized kernel program ends with the result array at the
    specification of the arguments, and the arguments unchanged. -/
theorem run : θ_run defs (onTc (τ := τ) (main (F := Ideal))) ⟨m, fun _ => 0, ρ⟩ fun r => ∀ c : Dev nD,
      r.2.mem ((c : Thread nD τ).loc main_v3)
        = attn scale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(((h c).2 main_v3 (Pipeline.mem_restRefs_of main_v3 (by decide) (by decide))).trans (tail_eq m c)).trans
          (result_eq m c),
        ((h c).2 main_arg0 (Pipeline.mem_restRefs_of main_arg0 (by decide) (by decide))).trans
          (W_main_arg0 m (dats m) c),
        ((h c).2 main_arg1 (Pipeline.mem_restRefs_of main_arg1 (by decide) (by decide))).trans
          (W_main_arg1 m (dats m) c)⟩)
    (run_main m ρ)

end Cert.KernelIdeal.Hand

end
-- ==== Proof.RefIsSpec.lean ====
/-
  The reference is the specification.

  The reference repeats q along a new key axis and k along a new query axis, subtracts, takes absolute values, sums
  the 32 lanes from the initial value 0, negates and multiplies by the scale. Read one operation at a time at the
  index (0, s, t, h), with lane w of the summed axis: both repeats read their operand at the coordinates they kept,
  q at (0, s, h, w) and k at (0, t, h, w); the initial value of the sum is the zero word, which is 0; and the host's
  abs and negation are the ideal instance's own. What is left is the specification's term.
-/
import proofs.«151844_j523986010475_1_alg».proof.Proof.Gen.ReferenceIdeal.Read
import proofs.«151844_j523986010475_1_alg».proof.Proof.L1Spec

noncomputable section

namespace Cert.ReferenceIdeal.RefValue

open Cert.ReferenceIdeal Cert.ReferenceIdeal.Gen Cert.ReferenceIdeal.Read
open Idealize.ShloMosaic Idealize.ShloMosaic.ValueIdx Cert.L1Spec

/-- Through the two repeats of q, result index (0, s, t, h) and lane w read q at (0, s, h, w). -/
theorem idx_q (u : Fin 1) (s t : Fin 1024) (h : Fin 8) (w : Fin 32) :
    idx_main_v0 (idx_main_v2 (idx_main_v6 (ix4 u s t h) w)) = ix4 (0 : Fin 1) s h w :=
  funext fun a => Fin.ext (by match a with | ⟨0, _⟩ => rfl | ⟨1, _⟩ => rfl | ⟨2, _⟩ => rfl | ⟨3, _⟩ => rfl)

/-- Through the two repeats of k, result index (0, s, t, h) and lane w read k at (0, t, h, w). -/
theorem idx_k (u : Fin 1) (s t : Fin 1024) (h : Fin 8) (w : Fin 32) :
    idx_main_v1 (idx_main_v3 (idx_main_v6 (ix4 u s t h) w)) = ix4 (0 : Fin 1) t h w :=
  funext fun a => Fin.ext (by match a with | ⟨0, _⟩ => rfl | ⟨1, _⟩ => rfl | ⟨2, _⟩ => rfl | ⟨3, _⟩ => rfl)

/-- The reference's last stage, as a function of the arguments, is the specification. -/
theorem ref_eq_attn (q k : FVec Ideal S1x1024x8x32 .f32) :
    val_main_v9 (F := Ideal) q k = attn scale q k := by
  funext i
  obtain ⟨u, s, t, h, rfl⟩ : ∃ (u : Fin 1) (s t : Fin 1024) (h : Fin 8), i = ix4 u s t h :=
    ⟨i 0, i 1, i 2, i 3, eq_ix4 i⟩
  rw [attn_ix4, val_main_v9_apply, val_main_v7_apply, val_main_v6_apply, val_main_v8_apply, val_main_cst_0_apply,
    val_main_cst_apply]
  simp only [val_main_v5_apply, val_main_v4_apply, val_main_v2_apply, val_main_v3_apply, val_main_v0_apply,
    val_main_v1_apply, idx_q, idx_k, Ideal.hostNegf_def, Ideal.hostAbsf_def, Ideal.negf_def, Ideal.mulf_def,
    Ideal.subf_def, Ideal.ofBits_def, Ideal.ofBits_zero_f32, zero_add]
  rfl

end Cert.ReferenceIdeal.RefValue

end
-- ==== Proof.lean ====
/-
  L1 attention scores: the kernel program and its jnp reference compute one function over the extended reals.

  For q, k of shape [1, 1024, 8, 32] both programs return, at (0, s, t, h),

      (-(Σ_w |q[0, s, h, w] - k[0, t, h, w]|)) · c        (c the float word both carry for 1/sqrt 32).

  The reference repeats q and k against each other, subtracts, takes absolute values and sums the 32 lanes at once.
  The kernel works on head-major copies in 256 x 256 tiles and adds the lanes one after another onto a running sum
  that starts at 0, stores 0 - sum times c, and a last transpose brings the head axis back to the end. The two agree
  because a running sum over lanes 0, ..., 31 is the sum over the 32 lanes (associativity of + with neutral 0, which
  holds at infinite entries as well), because 0 - x = -x, and because every layout step only moves coordinates.
  Finiteness of the inputs is not used.

  The three frames are the generated frame certificates (the kernel programs) and the generated run of the reference
  with its result dropped. The ideal pass rewrote nothing, so there is nothing to preserve. For the value claim both
  runs are posted at the same specification term: the kernel's by reading its frame run (tile by tile, then the
  cover, then the host transposes), the reference's by reading its run one operation at a time.
-/
import proofs.«151844_j523986010475_1_alg».proof.Defs
import proofs.«151844_j523986010475_1_alg».proof.Proof.Gen.Kernel
import proofs.«151844_j523986010475_1_alg».proof.Proof.Gen.Kernel.Skeleton
import proofs.«151844_j523986010475_1_alg».proof.Proof.Gen.Kernel.Launch
import proofs.«151844_j523986010475_1_alg».proof.Proof.Gen.Kernel.Points
import proofs.«151844_j523986010475_1_alg».proof.Proof.Gen.Kernel.Frame
import proofs.«151844_j523986010475_1_alg».proof.Proof.Gen.KernelIdeal
import proofs.«151844_j523986010475_1_alg».proof.Proof.Gen.KernelIdeal.Skeleton
import proofs.«151844_j523986010475_1_alg».proof.Proof.Gen.KernelIdeal.Launch
import proofs.«151844_j523986010475_1_alg».proof.Proof.Gen.KernelIdeal.Points
import proofs.«151844_j523986010475_1_alg».proof.Proof.Gen.KernelIdeal.Frame
import proofs.«151844_j523986010475_1_alg».proof.Proof.Gen.ReferenceIdeal
import proofs.«151844_j523986010475_1_alg».proof.Proof.Gen.ReferenceIdeal.Run
import proofs.«151844_j523986010475_1_alg».proof.Proof.Gen.ReferenceIdeal.Read
import proofs.«151844_j523986010475_1_alg».proof.Proof.Gen.Pre_finite_inputs
import proofs.«151844_j523986010475_1_alg».proof.Proof.KernelValue
import proofs.«151844_j523986010475_1_alg».proof.Proof.RefIsSpec
import Idealize.ShloMosaic.Adequacy
import Idealize.ShloMosaic.Init

noncomputable section

namespace Cert.Proof

open Idealize.ShloMosaic Idealize.ShloMosaic.TcCoe Idealize.SL.Sem Cert.L1Spec

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories that agree on q and k both programs end with the result array at the specification of q and k. -/
theorem algebraic : Cert.algebraic_KernelIdeal_ReferenceIdeal := by
  intro m ρ m' ρ' _ hagree
  refine ⟨fun c => attn scale (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v9_eq _ _).trans (Cert.ReferenceIdeal.RefValue.ref_eq_attn _ _)).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
